-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x512 .f32) (main_arg2 : FVec F S512x512 .f32) (main_arg3 : FVec F S512x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_v13 main_v16
-- ==== Kernel.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S8192x4096 : Shape := ⟨2, ![8192, 4096]⟩
abbrev S1x4096 : Shape := ⟨2, ![1, 4096]⟩
abbrev S128x4096 : Shape := ⟨2, ![128, 4096]⟩
abbrev S128x512 : Shape := ⟨2, ![128, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S512x512, .f32⟩
  | .hbm, ⟨3, _⟩ => ⟨S512x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x512, .f32⟩
  | .local _ .vmem, ⟨3, _⟩ => ⟨S512x512, .f32⟩
  | .local _ .vmem, ⟨4, _⟩ => ⟨S512x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x4096_S8192x4096 : S4x2048x4096.ShapeCasts S8192x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S8192x4096_S4x2048x4096 : S8192x4096.ShapeCasts S4x2048x4096
  dot_S128x4096_S4096x512_S128x512_1_0_0_1_n_n_wf : DotDims.WF S128x4096 S4096x512 S128x512 [1] [0] [0] [1] [] []
  dot_S128x512_S512x512_S128x512_1_0_0_1_n_n_wf : DotDims.WF S128x512 S512x512 S128x512 [1] [0] [0] [1] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .f32 = 32 ∨ (Rect.block (s := S512x4096) S512x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S8192x4096 : Shape := ⟨2, ![8192, 4096]⟩
abbrev S8192x512 : Shape := ⟨2, ![8192, 512]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S512x512, .f32⟩
  | .hbm, ⟨3, _⟩ => ⟨S512x4096, .f32⟩
  | .hbm, ⟨4, _⟩ => ⟨S4096, .f32⟩
  | .hbm, ⟨5, _⟩ => ⟨S8192x4096, .f32⟩
  | .hbm, ⟨6, _⟩ => ⟨S8192x512, .f32⟩
  | .hbm, ⟨7, _⟩ => ⟨S8192x512, .f32⟩
  | .hbm, ⟨8, _⟩ => ⟨S8192x4096, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S8192x4096_S4096x512_S8192x512_1_0_0_1_n_n_wf : DotDims.WF S8192x4096 S4096x512 S8192x512 [1] [0] [0] [1] [] []
  dot_S8192x512_S512x512_S8192x512_1_0_0_1_n_n_wf : DotDims.WF S8192x512 S512x512 S8192x512 [1] [0] [0] [1] [] []
  dot_S8192x512_S512x4096_S8192x4096_1_0_0_1_n_n_wf : DotDims.WF S8192x512 S512x4096 S8192x4096 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.Spec.lean ====
/-
  The value both programs compute, entry by entry: three chained matrix products and a bias,

      out[r, n] = Σ_{k2} ( Σ_{k1} ( Σ_{k0} x[r, k0] · t0[k0, k1] ) · t1[k1, k2] ) · t2[k2, n]  +  bias[n]

  on the extended reals. The sums are nested exactly as both programs nest them (each product is
  formed before the next is taken), so no sum is ever regrouped or distributed and the identity needs
  no finiteness of the inputs. An entry depends on ONE row of the left operand only, which is why a
  kernel that tiles the rows computes, block by block, the rows of the same array.
-/
import Idealize.ShloMosaic.PureOps.Ideal
import Idealize.ShloMosaic.Lib.ValueIdx

noncomputable section

namespace Cert.TTChain

open Idealize.ShloMosaic Idealize.ShloMosaic.ValueIdx

/-- One entry of the chained product, from the one row `xrow` of the left operand it depends on, the three
    factor matrices, the bias entry `b` of its column, and the column `n`. -/
def entry (xrow : Fin 4096 → EReal) (T0 : (⟨2, ![4096, 512]⟩ : Shape).Idx → EReal)
    (T1 : (⟨2, ![512, 512]⟩ : Shape).Idx → EReal) (T2 : (⟨2, ![512, 4096]⟩ : Shape).Idx → EReal)
    (b : EReal) (n : Fin 4096) : EReal :=
  (∑ k2 : Fin 512, (∑ k1 : Fin 512, (∑ k0 : Fin 4096, xrow k0 * T0 (ix2 k0 k1)) * T1 (ix2 k1 k2)) * T2 (ix2 k2 n)) + b

/-- An entry is determined by the values it reads: equal rows, equal factor matrices (entry by entry), equal bias and
    column give equal entries. -/
theorem entry_congr {xrow xrow' : Fin 4096 → EReal} {T0 T0' : (⟨2, ![4096, 512]⟩ : Shape).Idx → EReal}
    {T1 T1' : (⟨2, ![512, 512]⟩ : Shape).Idx → EReal} {T2 T2' : (⟨2, ![512, 4096]⟩ : Shape).Idx → EReal}
    {b b' : EReal} {n n' : Fin 4096}
    (hx : ∀ k, xrow k = xrow' k) (h0 : ∀ y, T0 y = T0' y) (h1 : ∀ y, T1 y = T1' y) (h2 : ∀ y, T2 y = T2' y)
    (hb : b = b') (hn : n = n') : entry xrow T0 T1 T2 b n = entry xrow' T0' T1' T2' b' n' := by
  subst hn hb
  unfold entry
  refine congrArg (· + b) ?_
  refine Finset.sum_congr rfl fun k2 _ => ?_
  rw [h2]
  refine congrArg (· * _) ?_
  refine Finset.sum_congr rfl fun k1 _ => ?_
  rw [h1]
  refine congrArg (· * _) ?_
  refine Finset.sum_congr rfl fun k0 _ => ?_
  rw [hx, h0]

/-- The whole [8192, 4096] result: row `r`, column `n` is the entry of row `r` of `X`, the bias a [1, 4096] row. -/
def rows (X : (⟨2, ![8192, 4096]⟩ : Shape).Idx → EReal) (T0 : (⟨2, ![4096, 512]⟩ : Shape).Idx → EReal)
    (T1 : (⟨2, ![512, 512]⟩ : Shape).Idx → EReal) (T2 : (⟨2, ![512, 4096]⟩ : Shape).Idx → EReal)
    (B : (⟨2, ![1, 4096]⟩ : Shape).Idx → EReal) : (⟨2, ![8192, 4096]⟩ : Shape).Idx → EReal :=
  fun j => entry (fun k => X (ix2 (⟨(j 0).val, (j 0).isLt⟩ : Fin 8192) k)) T0 T1 T2
    (B (ix2 (0 : Fin 1) (⟨(j 1).val, (j 1).isLt⟩ : Fin 4096))) ⟨(j 1).val, (j 1).isLt⟩

/-- The program's result: the [4, 2048, 4096] input flattened to [8192, 4096], the bias turned into a [1, 4096] row, the
    chained product of those, re-laid as [4, 2048, 4096]. (The three re-layings are row-major reshapes; both programs
    apply the same three, so they are carried as they stand and never evaluated on the kernel's side.) -/
def result (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩)
    (x : (⟨3, ![4, 2048, 4096]⟩ : Shape).Idx → EReal) (T0 : (⟨2, ![4096, 512]⟩ : Shape).Idx → EReal)
    (T1 : (⟨2, ![512, 512]⟩ : Shape).Idx → EReal) (T2 : (⟨2, ![512, 4096]⟩ : Shape).Idx → EReal)
    (b : (⟨1, ![4096]⟩ : Shape).Idx → EReal) : (⟨3, ![4, 2048, 4096]⟩ : Shape).Idx → EReal :=
  shapeCast ⟨3, ![4, 2048, 4096]⟩ (rows (shapeCast ⟨2, ![8192, 4096]⟩ x h1) T0 T1 T2 (shapeCast ⟨2, ![1, 4096]⟩ b h2)) h3

end Cert.TTChain

end
-- ==== Proof.KernelBlock.lean ====
/-
  What one grid point's body computes, entry by entry. The body loads a 128-row block of the left operand
  and the three factor matrices whole, forms the three products one after the other (each into a zero
  accumulator; the changes of float format between them are the identity on the extended reals), and adds
  the bias row broadcast over the 128 rows. So entry (p, q) of what it stores is the chained-product entry
  of row p of the block: the specification's `entry`.
-/
import proofs.«174841_j33200097198471_1_alg».proof.Proof.Gen.KernelIdeal.Skeleton
import proofs.«174841_j33200097198471_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.TcCoe Idealize.ShloMosaic.ValueIdx
open Cert.TTChain

/-! ### The product [128, 4096] · [4096, 512] -/

theorem lhs_mmA_0 (i : S128x512.Idx) (q : dot_S128x4096_S4096x512_S128x512_1_0_0_1_n_n.contr.Idx) :
    (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem lhs_mmA_1 (i : S128x512.Idx) (q : dot_S128x4096_S4096x512_S128x512_1_0_0_1_n_n.contr.Idx) :
    (dot_S128x4096_S4096x512_S128x512_1_0_0_1_n_n.lhsIdx i q 1).val = (q ⟨0, by decide⟩).val :=
  dot_S128x4096_S4096x512_S128x512_1_0_0_1_n_n.lhsIdx_val_of_single rfl i q
theorem rhs_mmA_0 (i : S128x512.Idx) (q : dot_S128x4096_S4096x512_S128x512_1_0_0_1_n_n.contr.Idx) :
    (dot_S128x4096_S4096x512_S128x512_1_0_0_1_n_n.rhsIdx i q 0).val = (q ⟨0, by decide⟩).val :=
  dot_S128x4096_S4096x512_S128x512_1_0_0_1_n_n.rhsIdx_val_of_single rfl i q
theorem rhs_mmA_1 (i : S128x512.Idx) (q : dot_S128x4096_S4096x512_S128x512_1_0_0_1_n_n.contr.Idx) :
    (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-- Into a zero accumulator the kernel's matrix product is, at the extended reals, the plain sum over the contracted
    axis: entry (p, q) is Σ_k l[p, k] · r[k, q]. -/
theorem mmA_apply (l : FVec Ideal S128x4096 .bf16) (r : FVec Ideal S4096x512 .bf16) (p : Fin 128) (q : Fin 512) :
    matmul dot_S128x4096_S4096x512_S128x512_1_0_0_1_n_n none l r (constant S128x512 .f32 0x00000000#32) (ix2 p q)
      = ∑ k : Fin 4096, l (ix2 p k) * r (ix2 k q) := by
  simp only [matmul]
  rw [Ideal.matmul_constant_zero_apply, ← Equiv.sum_comp (ValueIdx.contrEquiv1 dot_S128x4096_S4096x512_S128x512_1_0_0_1_n_n 4096 rfl rfl).symm]
  refine Finset.sum_congr rfl fun k _ => ?_
  have hk := ValueIdx.contrEquiv1_symm_val dot_S128x4096_S4096x512_S128x512_1_0_0_1_n_n 4096 rfl rfl k
  have el : dot_S128x4096_S4096x512_S128x512_1_0_0_1_n_n.lhsIdx (ix2 p q) ((ValueIdx.contrEquiv1 dot_S128x4096_S4096x512_S128x512_1_0_0_1_n_n 4096 rfl rfl).symm k) = ix2 p k := funext fun a => Fin.ext (by
    match a with
    | ⟨0, _⟩ => exact lhs_mmA_0 _ _
    | ⟨1, _⟩ => exact (lhs_mmA_1 _ _).trans hk)
  have er : dot_S128x4096_S4096x512_S128x512_1_0_0_1_n_n.rhsIdx (ix2 p q) ((ValueIdx.contrEquiv1 dot_S128x4096_S4096x512_S128x512_1_0_0_1_n_n 4096 rfl rfl).symm k) = ix2 k q := funext fun a => Fin.ext (by
    match a with
    | ⟨0, _⟩ => exact (rhs_mmA_0 _ _).trans hk
    | ⟨1, _⟩ => exact rhs_mmA_1 _ _)
  rw [el, er]

/-! ### The product [128, 512] · [512, 512] -/

theorem lhs_mmB_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_mmB_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_mmB_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_mmB_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- Into a zero accumulator the kernel's matrix product is, at the extended reals, the plain sum over the contracted
    axis: entry (p, q) is Σ_k l[p, k] · r[k, q]. -/
theorem mmB_apply (l : FVec Ideal S128x512 .bf16) (r : FVec Ideal S512x512 .bf16) (p : Fin 128) (q : Fin 512) :
    matmul dot_S128x512_S512x512_S128x512_1_0_0_1_n_n none l r (constant S128x512 .f32 0x00000000#32) (ix2 p q)
      = ∑ k : Fin 512, l (ix2 p k) * r (ix2 k q) := by
  simp only [matmul]
  rw [Ideal.matmul_constant_zero_apply, ← Equiv.sum_comp (ValueIdx.contrEquiv1 dot_S128x512_S512x512_S128x512_1_0_0_1_n_n 512 rfl rfl).symm]
  refine Finset.sum_congr rfl fun k _ => ?_
  have hk := ValueIdx.contrEquiv1_symm_val dot_S128x512_S512x512_S128x512_1_0_0_1_n_n 512 rfl rfl k
  have el : dot_S128x512_S512x512_S128x512_1_0_0_1_n_n.lhsIdx (ix2 p q) ((ValueIdx.contrEquiv1 dot_S128x512_S512x512_S128x512_1_0_0_1_n_n 512 rfl rfl).symm k) = ix2 p k := funext fun a => Fin.ext (by
    match a with
    | ⟨0, _⟩ => exact lhs_mmB_0 _ _
    | ⟨1, _⟩ => exact (lhs_mmB_1 _ _).trans hk)
  have er : dot_S128x512_S512x512_S128x512_1_0_0_1_n_n.rhsIdx (ix2 p q) ((ValueIdx.contrEquiv1 dot_S128x512_S512x512_S128x512_1_0_0_1_n_n 512 rfl rfl).symm k) = ix2 k q := funext fun a => Fin.ext (by
    match a with
    | ⟨0, _⟩ => exact (rhs_mmB_0 _ _).trans hk
    | ⟨1, _⟩ => exact rhs_mmB_1 _ _)
  rw [el, er]

/-! ### The product [128, 512] · [512, 4096] -/

theorem lhs_mmC_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem lhs_mmC_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem rhs_mmC_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem rhs_mmC_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- Into a zero accumulator the kernel's matrix product is, at the extended reals, the plain sum over the contracted
    axis: entry (p, q) is Σ_k l[p, k] · r[k, q]. -/
theorem mmC_apply (l : FVec Ideal S128x512 .bf16) (r : FVec Ideal S512x4096 .bf16) (p : Fin 128) (q : Fin 4096) :
    matmul dot_S128x512_S512x4096_S128x4096_1_0_0_1_n_n none l r (constant S128x4096 .f32 0x00000000#32) (ix2 p q)
      = ∑ k : Fin 512, l (ix2 p k) * r (ix2 k q) := by
  simp only [matmul]
  rw [Ideal.matmul_constant_zero_apply, ← Equiv.sum_comp (ValueIdx.contrEquiv1 dot_S128x512_S512x4096_S128x4096_1_0_0_1_n_n 512 rfl rfl).symm]
  refine Finset.sum_congr rfl fun k _ => ?_
  have hk := ValueIdx.contrEquiv1_symm_val dot_S128x512_S512x4096_S128x4096_1_0_0_1_n_n 512 rfl rfl k
  have el : dot_S128x512_S512x4096_S128x4096_1_0_0_1_n_n.lhsIdx (ix2 p q) ((ValueIdx.contrEquiv1 dot_S128x512_S512x4096_S128x4096_1_0_0_1_n_n 512 rfl rfl).symm k) = ix2 p k := funext fun a => Fin.ext (by
    match a with
    | ⟨0, _⟩ => exact lhs_mmC_0 _ _
    | ⟨1, _⟩ => exact (lhs_mmC_1 _ _).trans hk)
  have er : dot_S128x512_S512x4096_S128x4096_1_0_0_1_n_n.rhsIdx (ix2 p q) ((ValueIdx.contrEquiv1 dot_S128x512_S512x4096_S128x4096_1_0_0_1_n_n 512 rfl rfl).symm k) = ix2 k q := funext fun a => Fin.ext (by
    match a with
    | ⟨0, _⟩ => exact (rhs_mmC_0 _ _).trans hk
    | ⟨1, _⟩ => exact rhs_mmC_1 _ _)
  rw [el, er]

/-! ### The stored value -/

/-- Entry (p, q) of the value the body stores: the chained-product entry of row p of the loaded block of the left
    operand, with the bias of column q. -/
theorem pay_apply (x0 : Vec Ideal S128x4096 .f32) (x1 : Vec Ideal S4096x512 .f32) (x2 : Vec Ideal S512x512 .f32)
    (x3 : Vec Ideal S512x4096 .f32) (x4 : Vec Ideal S1x4096 .f32) (p : Fin 128) (q : Fin 4096) :
    k0_pay1 (F := Ideal) x0 x1 x2 x3 x4 (ix2 p q)
      = entry (fun k => x0 (ix2 p k)) x1 x2 x3 (x4 (ix2 (0 : Fin 1) q)) q := by
  unfold k0_pay1 entry
  refine (addf_apply _ _ _).trans ?_
  refine congrArg₂ (· + ·) ?_ ?_
  · refine (mmC_apply _ _ p q).trans ?_
    refine Finset.sum_congr rfl fun k2 _ => ?_
    refine congrArg₂ (· * ·) ?_ rfl
    refine (mmB_apply _ _ p k2).trans ?_
    refine Finset.sum_congr rfl fun k1 _ => ?_
    refine congrArg₂ (· * ·) ?_ rfl
    refine (mmA_apply _ _ p k1).trans ?_
    refine Finset.sum_congr rfl fun k0 _ => ?_
    refine congrArg₂ (· * ·) ?_ rfl
    exact congrFun (shapeCast_self x0 shapeCasts_S128x4096_S128x4096) (ix2 p k0)
  · refine (broadcastTo_1b_ab_apply _ broadcasts_S1x4096_S128x4096 p q).trans ?_
    exact congrFun (shapeCast_self x4 shapeCasts_S1x4096_S1x4096) (ix2 (0 : Fin 1) q)

/-- The same, placed in the whole array: if the loaded block's row p is row `i 0` of the [8192, 4096] left operand `X`,
    the other loads are the factor matrices and the bias row, and q is column `i 1`, then entry (p, q) of the stored
    value is entry `i` of the whole chained product. -/
theorem block_entry (X : Vec Ideal S8192x4096 .f32) (T0 : Vec Ideal S4096x512 .f32) (T1 : Vec Ideal S512x512 .f32)
    (T2 : Vec Ideal S512x4096 .f32) (B : Vec Ideal S1x4096 .f32)
    (x0 : Vec Ideal S128x4096 .f32) (x1 : Vec Ideal S4096x512 .f32) (x2 : Vec Ideal S512x512 .f32)
    (x3 : Vec Ideal S512x4096 .f32) (x4 : Vec Ideal S1x4096 .f32) (p : Fin 128) (q : Fin 4096) (i : S8192x4096.Idx)
    (hx : ∀ k : Fin 4096, x0 (ix2 p k) = X (ix2 (⟨(i 0).val, (i 0).isLt⟩ : Fin 8192) k))
    (h1 : ∀ y, x1 y = T0 y) (h2 : ∀ y, x2 y = T1 y) (h3 : ∀ y, x3 y = T2 y) (h4 : ∀ y, x4 y = B y)
    (hq : q.val = (i 1).val) :
    k0_pay1 (F := Ideal) x0 x1 x2 x3 x4 (ix2 p q) = rows X T0 T1 T2 B i := by
  refine (pay_apply x0 x1 x2 x3 x4 p q).trans ?_
  unfold rows
  have hq' : q = (⟨(i 1).val, (i 1).isLt⟩ : Fin 4096) := Fin.ext hq
  refine entry_congr hx h1 h2 h3 ?_ hq'
  rw [h4, hq']

end Cert.KernelIdeal.Block

end
-- ==== Proof.KernelArray.lean ====
/-
  The array the region leaves: the grid has 64 points, point t stages rows 128·t … 128·t + 127 of the
  [8192, 4096] left operand and the three factor matrices and the bias row whole, and writes back rows
  128·t … 128·t + 127 of the result. Each written block is the same rows of ONE whole-array function (the
  chained product of the arrays as the region finds them), and the 64 blocks tile the result; so the result
  array ends holding that function.
-/
import proofs.«174841_j33200097198471_1_alg».proof.Proof.Gen.KernelIdeal.Frame
import proofs.«174841_j33200097198471_1_alg».proof.Proof.KernelBlock
import Idealize.ShloMosaic.Lib.Pipeline.Value
import Idealize.ShloMosaic.Lib.Tactic

noncomputable section

namespace Cert.KernelIdeal.Arr

open Cert.KernelIdeal Cert.KernelIdeal.Gen Cert.KernelIdeal.Block Cert.TTChain
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the 64 grid points: the left operand's and the result's blocks move down the rows
    with the point; the factor matrices and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays as the region finds them, at their literal types. -/
abbrev xarr (c : Dev nD) : Vec Ideal S8192x4096 .f32 := V m c main_v0
abbrev t0arr (c : Dev nD) : Vec Ideal S4096x512 .f32 := V m c main_arg1
abbrev t1arr (c : Dev nD) : Vec Ideal S512x512 .f32 := V m c main_arg2
abbrev t2arr (c : Dev nD) : Vec Ideal S512x4096 .f32 := V m c main_arg3
abbrev barr (c : Dev nD) : Vec Ideal S1x4096 .f32 := V m c main_v1

/-- What the result array ends holding: the chained product of those arrays. -/
abbrev garr (c : Dev nD) : Vec Ideal S8192x4096 .f32 := rows (xarr m c) (t0arr m c) (t1arr m c) (t2arr m c) (barr m c)

/-- The left operand's block at point t is its rows 128·t … 128·t + 127. -/
theorem xblk_apply (c : Dev nD) (t : Fin cfg0.N) (p : Fin 128) (k : Fin 4096) (r : Fin 8192) (hr : r.val = t.val * 128 + p.val) :
    (iblk m c 0 t : Vec Ideal S128x4096 .f32) (ix2 p k) = xarr m c (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 4096 + 1 * k.val = k.val; rw [e1]; omega

/-- The factor matrices' and the bias row's blocks are the whole arrays, at every point. -/
theorem t0blk_apply (c : Dev nD) (t : Fin cfg0.N) (y : S4096x512.Idx) :
    (iblk m c 1 t : Vec Ideal S4096x512 .f32) y = t0arr m c y := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 512 + 1 * (y 1).val = (y 1).val; rw [e1]; omega
theorem t1blk_apply (c : Dev nD) (t : Fin cfg0.N) (y : S512x512.Idx) :
    (iblk m c 2 t : Vec Ideal S512x512 .f32) y = t1arr m c y := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega
theorem t2blk_apply (c : Dev nD) (t : Fin cfg0.N) (y : S512x4096.Idx) :
    (iblk m c 3 t : Vec Ideal S512x4096 .f32) y = t2arr m c y := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 4096 + 1 * (y 1).val = (y 1).val; rw [e1]; omega
theorem bblk_apply (c : Dev nD) (t : Fin cfg0.N) (y : S1x4096.Idx) :
    (iblk m c 4 t : Vec Ideal S1x4096 .f32) y = barr m c y := by
  obtain ⟨-, -, -, -, -, -, -, -, e0, e1, -⟩ := idx_facts t
  unfold iblk
  rw [View.read_apply]
  show V m c main_v1 _ = V m c main_v1 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-- WHAT POINT t WRITES BACK is block t of the chained product of the arrays as the region finds them. -/
theorem flushed_eq (c : Dev nD) (t : Fin cfg0.N) :
    (dats m 0 c).flushed 5 t = ((cfg0.win 5).blk t).view.read (Elt Ideal) (garr m c) := by
  show (cfg0.win 5).cut (grid0.coords t) ((dats m 0 c).after 5 t) = _
  rw [after0_5]
  unfold out0_5
  rw [View.canon_unit_zero hz]
  simp only [View.ld_unit_zero (S := S128x4096) hz, View.ld_unit_zero (S := S4096x512) hz, View.ld_unit_zero (S := S512x512) hz,
    View.ld_unit_zero (S := S512x4096) hz, View.ld_unit_zero (S := S1x4096) hz]
  obtain ⟨-, -, -, -, -, -, -, -, -, -, e0, e1⟩ := idx_facts t
  funext j
  obtain ⟨p, q, rfl⟩ : ∃ (p : Fin 128) (q : Fin 4096), j = ix2 p q := ⟨j 0, j 1, eq_ix2 j⟩
  show k0_pay1 (F := Ideal) (iblk m c 0 t) (iblk m c 1 t) (iblk m c 2 t) (iblk m c 3 t) (iblk m c 4 t) (ix2 p q)
    = garr m c (((cfg0.win 5).blk t).view.emb (ix2 p q))
  refine block_entry (xarr m c) (t0arr m c) (t1arr m c) (t2arr m c) (barr m c)
    (iblk m c 0 t) (iblk m c 1 t) (iblk m c 2 t) (iblk m c 3 t) (iblk m c 4 t) p q
    (((cfg0.win 5).blk t).view.emb (ix2 p q)) (fun k => ?_) (t0blk_apply m c t) (t1blk_apply m c t) (t2blk_apply m c t)
    (bblk_apply m c t) ?_
  · refine xblk_apply m c t p k _ ?_
    show win0_5.index t (0 : Fin 2) * 128 + 1 * p.val = t.val * 128 + p.val
    rw [e0]; omega
  · show q.val = win0_5.index t (1 : Fin 2) * 4096 + 1 * q.val
    rw [e1]; omega

/-- An index of the result array is in point t's block iff each coordinate is in the block's range on its axis. -/
theorem mem_blk (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v2).slice (win0_5.rect t)).set ↔ _
  rw [View.set_slice_whole, Rect.mem_set_unit]
  exact Iff.rfl

/-- Row r of the result lies in the block of point r / 128: the 64 blocks tile the array. -/
theorem cover (i : S8192x4096.Idx) : ∃ t : Fin cfg0.N, (cfg0.win 5).flush t = true ∧ i ∈ ((cfg0.win 5).blk t).view.set := by
  have hN : cfg0.N = 64 := N_0
  have hi0 : (i 0).val < 8192 := (i 0).isLt
  have hi1 : (i 1).val < 4096 := (i 1).isLt
  refine ⟨⟨(i 0).val / 128, by rw [hN]; omega⟩, flush0_5 _, ?_⟩
  rw [mem_blk]
  obtain ⟨-, -, -, -, -, -, -, -, -, -, e0, e1⟩ := idx_facts ⟨(i 0).val / 128, by rw [hN]; omega⟩
  intro a
  match a with
  | ⟨0, _⟩ =>
    show win0_5.index _ (0 : Fin 2) * 128 ≤ (i 0).val ∧ (i 0).val < win0_5.index _ (0 : Fin 2) * 128 + 128
    rw [e0]; show (i 0).val / 128 * 128 ≤ (i 0).val ∧ (i 0).val < (i 0).val / 128 * 128 + 128; omega
  | ⟨1, _⟩ =>
    show win0_5.index _ (1 : Fin 2) * 4096 ≤ (i 1).val ∧ (i 1).val < win0_5.index _ (1 : Fin 2) * 4096 + 4096
    rw [e1]; omega

/-- THE ARRAY after the region: the chained product of the arrays as the region finds them. -/
theorem final (c : Dev nD) : (dats m 0 c).arrAt 5 cfg0.N = garr m c :=
  (dats m 0 c).arrAt_eq_of_cover 5 (garr m c) (fun t _ => flushed_eq m c t) cover

end Cert.KernelIdeal.Arr

end
-- ==== Proof.KernelRun.lean ====
/-
  The kernel program's run, read as a value. @main flattens the input to [8192, 4096] and turns the bias into a
  [1, 4096] row (two reshapes before the region), runs the region, and re-lays the region's [8192, 4096] result as
  [4, 2048, 4096] (one reshape after it). The region's result array is the chained product of the arrays the region
  finds, so @main's result is the specification's `result` of the five arguments.
-/
import proofs.«174841_j33200097198471_1_alg».proof.Proof.KernelArray
import Idealize.ShloMosaic.Lib.StableHlo.Run

noncomputable section

namespace Cert.KernelIdeal.Arr

open Cert.KernelIdeal Cert.KernelIdeal.Gen Cert.KernelIdeal.Block Cert.TTChain
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The region finds the flattened input in `main_v0`. -/
theorem V_main_v0 (c : Dev nD) :
    (V m c main_v0 : S8192x4096.Idx → EReal) = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias row in `main_v1`. -/
theorem V_main_v1 (c : Dev nD) :
    (V m c main_v1 : S1x4096.Idx → EReal) = shapeCast S1x4096 (m ((c : Thread nD τ).loc main_arg4)) shapeCasts_S4096_S1x4096 := by
  show StableHlo.after hostOps0 (fun b => m (c, b)) (Proc.devRef .tc main_v1) = _
  after_results
  rfl

/-- The line after the region re-lays the region's result array. -/
theorem tail_main_v3 (c : Dev nD) :
    Pipeline.afterTail₀ cfgs (dats m) 0 (V0 m) [hostOps1] c main_v3
      = shapeCast S4x2048x4096 ((dats m 0 c).arrAt 5 cfg0.N) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 5 cfg0.N := Pipeline.withArrays_arr spec0 launch0.win.arr_inj c _ _ 5
  rw [e]
  rfl

/-- @MAIN'S RESULT, as the frame run states it, is the specification's `result` of the five arguments. -/
theorem value (c : Dev nD) :
    Pipeline.afterTail₀ cfgs (dats m) 0 (V0 m) [hostOps1] c main_v3
      = result shapeCasts_S4x2048x4096_S8192x4096 shapeCasts_S4096_S1x4096 shapeCasts_S8192x4096_S4x2048x4096
          (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_main_v3, final]
  unfold result
  show shapeCast S4x2048x4096 (rows (V m c main_v0) (V m c main_arg1) (V m c main_arg2) (V m c main_arg3) (V m c main_v1)) _ = _
  rw [V_main_v0, V_main_v1, V_main_arg1, V_main_arg2, V_main_arg3]

/-- THE RUN, READ: every weakly fair execution of the kernel program ends with its result at the specification's
    `result` of the arguments, the arguments unchanged (an argument the region stages is its array after the run, which
    for an input is its contents at entry; the other arguments are untouched by the lines around the region). -/
theorem run : θ_run defs (onTc (τ := τ) (main (F := Ideal))) ⟨m, fun _ => 0, ρ⟩ fun r => ∀ c : Dev nD,
      r.2.mem ((c.tc : Thread nD τ).loc main_v3)
        = result shapeCasts_S4x2048x4096_S8192x4096 shapeCasts_S4096_S1x4096 shapeCasts_S8192x4096_S4x2048x4096
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arr

end
-- ==== Proof.RefValue.lean ====
/-
  The reference computes the same function. Read at an index i of the [4, 2048, 4096] result, the reference is
  the third product read at the row-major image j of i in [8192, 4096], plus bias[i 2]; each host product is the
  plain sum over its contracted axis, so the nest of sums is the specification's entry of row j 0 and column j 1,
  and bias[i 2] is the [1, 4096] bias row read at column j 1 = i 2.
-/
import proofs.«174841_j33200097198471_1_alg».proof.Proof.Gen.ReferenceIdeal.Read
import proofs.«174841_j33200097198471_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.TTChain
open Idealize.ShloMosaic Idealize.ShloMosaic.TcCoe Idealize.ShloMosaic.ValueIdx

/-- The third product at an index j of [8192, 4096]: the nest of three sums. -/
theorem chain_apply (x0 : (⟨S4x2048x4096, .f32⟩ : BufTy).Contents (Elt Ideal)) (x1 : (⟨S4096x512, .f32⟩ : BufTy).Contents (Elt Ideal))
    (x2 : (⟨S512x512, .f32⟩ : BufTy).Contents (Elt Ideal)) (x3 : (⟨S512x4096, .f32⟩ : BufTy).Contents (Elt Ideal)) (j : S8192x4096.Idx) :
    val_main_v3 (F := Ideal) x0 x1 x2 x3 j
      = ∑ k2 : Fin 512, (∑ k1 : Fin 512, (∑ k0 : Fin 4096,
          val_main_v0 (F := Ideal) x0 (ix2 (⟨(j 0).val, (j 0).isLt⟩ : Fin 8192) k0) * x1 (ix2 k0 k1)) * x2 (ix2 k1 k2))
          * x3 (ix2 k2 (⟨(j 1).val, (j 1).isLt⟩ : Fin 4096)) := by
  refine (val_main_v3_apply x0 x1 x2 x3 j).trans (Finset.sum_congr rfl fun k2 _ => ?_)
  refine congrArg₂ (· * ·) ?_ (congrArg x3 (funext fun a => by match a with | ⟨0, _⟩ => rfl | ⟨1, _⟩ => rfl))
  refine (val_main_v2_apply x0 x1 x2 _).trans (Finset.sum_congr rfl fun k1 _ => ?_)
  refine congrArg₂ (· * ·) ?_ (congrArg x2 (funext fun a => by match a with | ⟨0, _⟩ => rfl | ⟨1, _⟩ => rfl))
  refine (val_main_v1_apply x0 x1 _).trans (Finset.sum_congr rfl fun k0 _ => ?_)
  refine congrArg₂ (· * ·) (congrArg (val_main_v0 (F := Ideal) x0) (funext fun a => by match a with | ⟨0, _⟩ => rfl | ⟨1, _⟩ => rfl))
    (congrArg x1 (funext fun a => by match a with | ⟨0, _⟩ => rfl | ⟨1, _⟩ => rfl))

/-- THE REFERENCE'S RESULT is the specification's: index by index. -/
theorem result_eq (x0 : (⟨S4x2048x4096, .f32⟩ : BufTy).Contents (Elt Ideal)) (x1 : (⟨S4096x512, .f32⟩ : BufTy).Contents (Elt Ideal))
    (x2 : (⟨S512x512, .f32⟩ : BufTy).Contents (Elt Ideal)) (x3 : (⟨S512x4096, .f32⟩ : BufTy).Contents (Elt Ideal))
    (x4 : (⟨S4096, .f32⟩ : BufTy).Contents (Elt Ideal))
    (h1 : S4x2048x4096.ShapeCasts S8192x4096) (h2 : S4096.ShapeCasts ⟨2, ![1, 4096]⟩) (h3 : S8192x4096.ShapeCasts S4x2048x4096) :
    val_main_v7 (F := Ideal) x0 x1 x2 x3 x4 = result h1 h2 h3 x0 x1 x2 x3 x4 := by
  funext i
  have hi0 : (i 0).val < 4 := (i 0).isLt
  have hi1 : (i 1).val < 2048 := (i 1).isLt
  have hi2 : (i 2).val < 4096 := (i 2).isLt
  unfold result
  rw [shapeCast_apply _ h3 i (idx_main_v4 i)
    (by rewrite [Shape.rowMajor_val_two, Shape.rowMajor_val_three]; show (((i 0).val * 2048 + (i 1).val) * 4096 + (i 2).val) / 4096 * 4096 + (((i 0).val * 2048 + (i 1).val) * 4096 + (i 2).val) % 4096 = ((i 0).val * 2048 + (i 1).val) * 4096 + (i 2).val; omega)]
  rw [val_main_v7_apply, val_main_v4_apply, val_main_v6_apply, val_main_v5_apply, chain_apply]
  unfold rows entry
  refine congrArg₂ (· + ·) rfl ?_
  refine (shapeCast_apply x4 h2 _ (idx_main_v5 (idx_main_v6 i)) ?_).symm
  rewrite [Shape.rowMajor_val_one, Shape.rowMajor_val_two]
  show (i 2).val = 0 * 4096 + (((i 0).val * 2048 + (i 1).val) * 4096 + (i 2).val) % 4096
  omega

end Cert.ReferenceIdeal.RefValue

end
-- ==== Proof.lean ====
/-
  The certificate of a fused chain of three matrix products with a bias,

      out = ((x2d · t0) · t1) · t2 + bias,      x2d the [4, 2048, 4096] input flattened to [8192, 4096],

  computed by one kernel over 64 blocks of 128 rows against the same chain on the host.

  The mathematics. On the extended reals a change of float format is the identity and a matrix product into a
  zero accumulator is the plain sum over the contracted axis, so entry (r, n) of either program's [8192, 4096]
  result is
      Σ_{k2} ( Σ_{k1} ( Σ_{k0} x2d[r, k0] · t0[k0, k1] ) · t1[k1, k2] ) · t2[k2, n]  +  bias[n],
  the sums nested in the same order on both sides: nothing is regrouped, so the equality holds at infinite
  entries too and the finiteness of the inputs is never used. An entry depends on row r of x2d only; the kernel's
  grid point t holds rows 128·t … 128·t + 127, computes exactly those rows of the result, and the 64 row blocks tile
  it. Both programs wrap the same three row-major re-layings around the chain (flatten the input, make the bias a
  row, fold the result back to [4, 2048, 4096]); the kernel side carries them as they stand, the reference side reads
  them at an index.

  The modules: `Spec` (the entry, the [8192, 4096] array, the result), `KernelBlock` (what one grid point stores, entry
  by entry), `KernelArray` (the blocks are rows of one array function and tile it), `KernelRun` (the program's run with
  its result named), `RefValue` (the reference's result is the same function). The three frames: the two kernel
  programs' are the frame certificates of their runs; the reference's is its run with the result dropped. The
  idealization rewrote nothing, so it is preserved trivially.
-/
import proofs.«174841_j33200097198471_1_alg».proof.Defs
import proofs.«174841_j33200097198471_1_alg».proof.Proof.Gen.Kernel
import proofs.«174841_j33200097198471_1_alg».proof.Proof.Gen.Kernel.Skeleton
import proofs.«174841_j33200097198471_1_alg».proof.Proof.Gen.Kernel.Launch
import proofs.«174841_j33200097198471_1_alg».proof.Proof.Gen.Kernel.Points
import proofs.«174841_j33200097198471_1_alg».proof.Proof.Gen.Kernel.Frame
import proofs.«174841_j33200097198471_1_alg».proof.Proof.Gen.KernelIdeal
import proofs.«174841_j33200097198471_1_alg».proof.Proof.Gen.KernelIdeal.Skeleton
import proofs.«174841_j33200097198471_1_alg».proof.Proof.Gen.KernelIdeal.Launch
import proofs.«174841_j33200097198471_1_alg».proof.Proof.Gen.KernelIdeal.Points
import proofs.«174841_j33200097198471_1_alg».proof.Proof.Gen.KernelIdeal.Frame
import proofs.«174841_j33200097198471_1_alg».proof.Proof.Gen.ReferenceIdeal
import proofs.«174841_j33200097198471_1_alg».proof.Proof.Gen.Pre_finite_inputs
import proofs.«174841_j33200097198471_1_alg».proof.Proof.Gen.ReferenceIdeal.Run
import proofs.«174841_j33200097198471_1_alg».proof.Proof.Gen.ReferenceIdeal.Read
import proofs.«174841_j33200097198471_1_alg».proof.Proof.KernelRun
import proofs.«174841_j33200097198471_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the specification's `result` of arguments that agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1, (hagree c).2.2.2.2]
  exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
